-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x16 : Shape := ⟨2, ![1600000, 16]⟩
abbrev S1600000x1 : Shape := ⟨2, ![1600000, 1]⟩
abbrev S1600000 : Shape := ⟨1, ![1600000]⟩
abbrev S1 : Shape := ⟨1, ![1]⟩
abbrev S_ : Shape := ⟨0, ![]⟩

class Facts : Prop where
  bcast_S_S1600000x16 : S_.BroadcastsInDim S1600000x16 (![] : Fin 0 → Fin S1600000x16.rank)
  reducesTo_S1600000x16_S_d0_1 : S1600000x16.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1600000x16 .f32) (main_arg1 : FVec F S1600000x1 .f32) (main_arg2 : IVec S1600000 32) (main_arg3 : FVec F S1 .f32) : IVec S_ 1 :=
  let main_v0 : FVec F S1600000x16 .f32 := Host.absf main_arg0
  let main_cst : FVec F S_ .f32 := constant S_ .f32 0x7F800000#32
  let main_v1 : FVec F S1600000x16 .f32 := broadcastInDim S1600000x16 ![] bcast_S_S1600000x16 main_cst
  let main_v2 : IVec S1600000x16 1 := cmpf .olt main_v0 main_v1
  let main_c : IVec S_ 1 := constantI S_ 1 1#1
  let main_v3 : IVec S_ 1 := (fun x v => Host.reduce IntOp.andi x v reducesTo_S1600000x16_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S1600000x16 : Shape := ⟨2, ![1600000, 16]⟩
abbrev S1600000x1 : Shape := ⟨2, ![1600000, 1]⟩
abbrev S1600000 : Shape := ⟨1, ![1600000]⟩
abbrev S1 : Shape := ⟨1, ![1]⟩
abbrev S16x1600000 : Shape := ⟨2, ![16, 1600000]⟩
abbrev S1x1600000 : Shape := ⟨2, ![1, 1600000]⟩
abbrev S16x51200 : Shape := ⟨2, ![16, 51200]⟩
abbrev S16x3200 : Shape := ⟨2, ![16, 3200]⟩
abbrev S1x3200 : Shape := ⟨2, ![1, 3200]⟩
abbrev S16x2048 : Shape := ⟨2, ![16, 2048]⟩
abbrev S2048x1 : Shape := ⟨2, ![2048, 1]⟩
abbrev S2048x3200 : Shape := ⟨2, ![2048, 3200]⟩
abbrev S16x50000 : Shape := ⟨2, ![16, 50000]⟩
abbrev S50000x16 : Shape := ⟨2, ![50000, 16]⟩
abbrev S1x1 : Shape := ⟨2, ![1, 1]⟩

abbrev nBuf : Space → Nat
  | .hbm => 13
  | .vmem => 9
  | .smem => 0
  | _ => 0

abbrev bufTy : (tb : Table) → Fin (tcTables nBuf tb) → BufTy
  | .hbm, ⟨0, _⟩ => ⟨S1600000x16, .f32⟩
  | .hbm, ⟨1, _⟩ => ⟨S1600000x1, .f32⟩
  | .hbm, ⟨2, _⟩ => ⟨S1600000, .i32⟩
  | .hbm, ⟨3, _⟩ => ⟨S1, .f32⟩
  | .hbm, ⟨4, _⟩ => ⟨S16x1600000, .f32⟩
  | .hbm, ⟨5, _⟩ => ⟨S1x1600000, .f32⟩
  | .hbm, ⟨6, _⟩ => ⟨S1x1600000, .i32⟩
  | .hbm, ⟨7, _⟩ => ⟨S16x51200, .f32⟩
  | .hbm, ⟨8, _⟩ => ⟨S16x50000, .f32⟩
  | .hbm, ⟨9, _⟩ => ⟨S50000x16, .f32⟩
  | .hbm, ⟨10, _⟩ => ⟨S1x1, .f32⟩
  | .hbm, ⟨11, _⟩ => ⟨S50000x16, .f32⟩
  | .hbm, ⟨12, _⟩ => ⟨S50000x16, .f32⟩
  | .local _ .vmem, ⟨0, _⟩ => ⟨S16x3200, .f32⟩
  | .local _ .vmem, ⟨1, _⟩ => ⟨S16x3200, .f32⟩
  | .local _ .vmem, ⟨2, _⟩ => ⟨S1x3200, .f32⟩
  | .local _ .vmem, ⟨3, _⟩ => ⟨S1x3200, .f32⟩
  | .local _ .vmem, ⟨4, _⟩ => ⟨S1x3200, .i32⟩
  | .local _ .vmem, ⟨5, _⟩ => ⟨S1x3200, .i32⟩
  | .local _ .vmem, ⟨6, _⟩ => ⟨S16x2048, .f32⟩
  | .local _ .vmem, ⟨7, _⟩ => ⟨S16x2048, .f32⟩
  | .local _ .vmem, ⟨8, _⟩ => ⟨S16x2048, .f32⟩
  | _, _ => ⟨S1600000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![25, 500], ![false, false]⟩

def k0_cond2 (i : grid0.Coords) : BitVec 1 :=
  let arg1 : BitVec 32 := BitVec.ofNat 32 (i 1).val
  let c499_i32 : BitVec 32 := 499#32
  let v28 : BitVec 1 := Scalar.cmpi .eq arg1 c499_i32
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S16x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x3200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S1600000x16_S16x1600000_1_0 : S1600000x16.Transposes [1, 0] S16x1600000
  shapeCasts_S1600000x1_S1x1600000 : S1600000x1.ShapeCasts S1x1600000
  shapeCasts_S1600000_S1x1600000 : S1600000.ShapeCasts S1x1600000
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  iota_S2048x1_d0_w32 : S2048x1.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S2048x1_S2048x3200 : S2048x1.Broadcasts S2048x3200
  broadcasts_S1x3200_S2048x3200 : S1x3200.Broadcasts S2048x3200
  natLt_1_32 : 1 < 32
  bitsLt_bf16_f32 : FTy.bits .bf16 < FTy.bits .f32
  inb_S16x3200_S16x3200_0_0 : ∀ a, (![0, 0] : Fin 2 → Nat) a + S16x3200.size a ≤ S16x3200.size a
  h_S16x3200 : 0 < S16x3200.numel
  shapeCasts_S16x3200_S16x3200 : S16x3200.ShapeCasts S16x3200
  broadcasts_S1x3200_S16x3200 : S1x3200.Broadcasts S16x3200
  slices_S16x51200_S16x50000_0_0 : S16x51200.Slices ![0, 0] S16x50000
  transposes_S16x50000_S50000x16_1_0 : S16x50000.Transposes [1, 0] S50000x16
  bcast_S1_S1x1_1 : S1.BroadcastsInDim S1x1 (![1] : Fin 1 → Fin S1x1.rank)
  bcast_S1x1_S50000x16_0_1 : S1x1.BroadcastsInDim S50000x16 (![0, 1] : Fin 2 → Fin S50000x16.rank)
  dot_S16x3200_S2048x3200_S16x2048_1_1_0_0_n_n_wf : DotDims.WF S16x3200 S2048x3200 S16x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3200.size a ≤ S16x1600000.size a
  hwx0_0 : ∀ i : grid0.Coords, EltTy.bits .f32 = 32 ∨ (Rect.block (s := S16x1600000) S16x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3200.size a ≤ S1x1600000.size a
  hwx0_1 : ∀ i : grid0.Coords, EltTy.bits .f32 = 32 ∨ (Rect.block (s := S1x1600000) S1x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3200.size a ≤ S1x1600000.size a
  hwx0_2 : ∀ i : grid0.Coords, EltTy.bits .i32 = 32 ∨ (Rect.block (s := S1x1600000) S1x3200.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x51200.size a
  hwx0_3 : ∀ i : grid0.Coords, EltTy.bits .f32 = 32 ∨ (Rect.block (s := S16x51200) S16x2048.size (cc0_transform_3 i) (hinb0_3 i)).WholeWords (EltTy.packing .f32)

variable [Facts₀]

def dot_S16x3200_S2048x3200_S16x2048_1_1_0_0_n_n : DotDims S16x3200 S2048x3200 S16x2048 where
  lhsContracting := [1]
  rhsContracting := [1]
  lhsNonContracting := [0]
  rhsNonContracting := [0]
  lhsBatch := []
  rhsBatch := []
  wf := dot_S16x3200_S2048x3200_S16x2048_1_1_0_0_n_n_wf

abbrev win0_0 : Pipeline.Window sig grid0 :=
  Pipeline.Window.ofSpec (Memref.whole main_v0) S16x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1600000x16 : Shape := ⟨2, ![1600000, 16]⟩
abbrev S1600000x1 : Shape := ⟨2, ![1600000, 1]⟩
abbrev S1600000 : Shape := ⟨1, ![1600000]⟩
abbrev S1 : Shape := ⟨1, ![1]⟩
abbrev S_ : Shape := ⟨0, ![]⟩
abbrev S50000x16 : Shape := ⟨2, ![50000, 16]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S1600000x16, .f32⟩
  | .hbm, ⟨1, _⟩ => ⟨S1600000x1, .f32⟩
  | .hbm, ⟨2, _⟩ => ⟨S1600000, .i32⟩
  | .hbm, ⟨3, _⟩ => ⟨S1, .f32⟩
  | .hbm, ⟨4, _⟩ => ⟨S1600000x16, .f32⟩
  | .hbm, ⟨5, _⟩ => ⟨S1600000x16, .f32⟩
  | .hbm, ⟨6, _⟩ => ⟨S_, .f32⟩
  | .hbm, ⟨7, _⟩ => ⟨S50000x16, .f32⟩
  | .hbm, ⟨8, _⟩ => ⟨S1600000x1, .i32⟩
  | .hbm, ⟨9, _⟩ => ⟨S50000x16, .f32⟩
  | .hbm, ⟨10, _⟩ => ⟨S1x1, .f32⟩
  | .hbm, ⟨11, _⟩ => ⟨S50000x16, .f32⟩
  | .hbm, ⟨12, _⟩ => ⟨S50000x16, .f32⟩
  | _, _ => ⟨S1600000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S1600000x1_S1600000x16_0_1 : S1600000x1.BroadcastsInDim S1600000x16 (![0, 1] : Fin 2 → Fin S1600000x16.rank)
  bcast_S_S50000x16 : S_.BroadcastsInDim S50000x16 (![] : Fin 0 → Fin S50000x16.rank)
  bcast_S1600000_S1600000x1_0 : S1600000.BroadcastsInDim S1600000x1 (![0] : Fin 1 → Fin S1600000x1.rank)
  bcast_S1_S1x1_1 : S1.BroadcastsInDim S1x1 (![1] : Fin 1 → Fin S1x1.rank)
  bcast_S1x1_S50000x16_0_1 : S1x1.BroadcastsInDim S50000x16 (![0, 1] : Fin 2 → Fin S50000x16.rank)
  scatter_S50000x16_S1600000x1_S1600000x16_1_0_0_1_wf : ScatterDims.WF S50000x16 S1600000x1 S1600000x16 [1] [0] [0] 1

variable [Facts₀]

def scatter_S50000x16_S1600000x1_S1600000x16_1_0_0_1 : ScatterDims S50000x16 S1600000x1 S1600000x16 where
  updateWindowDims := [1]
  insertedWindowDims := [0]
  scatterDimsToOperandDims := [0]
  indexVectorDim := 1
  wf := scatter_S50000x16_S1600000x1_S1600000x16_1_0_0_1_wf

class Facts : Prop extends Facts₀ where

variable [Facts]
-- ==== Proof.BodyPieces.lean ====
/-
  WHAT ONE RUN OF THE BODY LEAVES BEHIND, as values.

  The body keeps node tile `i`'s running sums in a scratch buffer that outlives the grid point. In each of its three
  control cases it ends with ONE store that covers the whole scratch, the update `k0_pay2` of the three loaded blocks
  and of what the scratch held:
    * at the first edge block of a tile it first stores zeros and reads them back, so the update starts from the zero
      block `k0_pay1` (`scratch_first`);
    * at the later edge blocks it starts from what the point before left (`scratch_next`, `scratch_last`);
    * at the last edge block it moreover copies the finished scratch into the output block (`out_last`).
  Each statement holds at any float instance: it only says which stored piece is read back where.
-/
import proofs.«427904_j28003186770018_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz : (![0, 0] : Fin 2 → Nat) = fun _ => 0 := funext fun a => by fin_cases a <;> rfl

/-- First edge block of a tile: the scratch ends at the update of the zero block. -/
theorem scratch_first (c : Dev nD) (i : grid0.Coords) (arg2 : Memref sig .tc .vmem S16x3200 .f32) (harg2 : arg2.IsWhole) (arg3 : Memref sig .tc .vmem S1x3200 .f32) (harg3 : arg3.IsWhole) (arg4 : Memref sig .tc .vmem S1x3200 .i32) (harg4 : arg4.IsWhole) (arg5 : Memref sig .tc .vmem S16x2048 .f32) (harg5 : arg5.IsWhole) (arg6 : Memref sig .tc .vmem S16x2048 .f32) (harg6 : arg6.IsWhole) (hc0 : cond0_0 i) (hc1 : ¬cond0_1 i)
    (x0 : Vec F S16x3200 .f32) (x1 : Vec F S1x3200 .f32) (x2 : Vec F S1x3200 .i32) :
    sout0_A_0 c i arg2 harg2 arg3 harg3 arg4 harg4 arg5 harg5 arg6 harg6 hc0 hc1 x0 x1 x2 = k0_pay2 i x2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S16x2048) hz, View.readCov_unit_zero (S := S16x2048) _ hz]
  simp only [View.readAt_eq_ld, harg2.read_unread, harg3.read_unread, harg4.read_unread, harg6.read_unread,
    View.ld_unit_zero (S := S16x3200) hz, View.ld_unit_zero (S := S1x3200) hz, View.ld_unit_zero (S := S16x2048) hz]

/-- A middle edge block: the scratch ends at the update of what the point before left. -/
theorem scratch_next (c : Dev nD) (i : grid0.Coords) (arg2 : Memref sig .tc .vmem S16x3200 .f32) (harg2 : arg2.IsWhole) (arg3 : Memref sig .tc .vmem S1x3200 .f32) (harg3 : arg3.IsWhole) (arg4 : Memref sig .tc .vmem S1x3200 .i32) (harg4 : arg4.IsWhole) (arg5 : Memref sig .tc .vmem S16x2048 .f32) (harg5 : arg5.IsWhole) (arg6 : Memref sig .tc .vmem S16x2048 .f32) (harg6 : arg6.IsWhole) (hc0 : ¬cond0_0 i) (hc1 : ¬cond0_1 i)
    (x0 : Vec F S16x3200 .f32) (x1 : Vec F S1x3200 .f32) (x2 : Vec F S1x3200 .i32) (xs0 : Vec F S16x2048 .f32) :
    sout0_B_0 c i arg2 harg2 arg3 harg3 arg4 harg4 arg5 harg5 arg6 harg6 hc0 hc1 x0 x1 x2 xs0 = k0_pay2 i x2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg3.read_unread, harg4.read_unread, harg6.read_unread,
    View.ld_unit_zero (S := S16x3200) hz, View.ld_unit_zero (S := S1x3200) hz, View.ld_unit_zero (S := S16x2048) hz]

/-- The last edge block: the same update in the scratch, -/
theorem scratch_last (c : Dev nD) (i : grid0.Coords) (arg2 : Memref sig .tc .vmem S16x3200 .f32) (harg2 : arg2.IsWhole) (arg3 : Memref sig .tc .vmem S1x3200 .f32) (harg3 : arg3.IsWhole) (arg4 : Memref sig .tc .vmem S1x3200 .i32) (harg4 : arg4.IsWhole) (arg5 : Memref sig .tc .vmem S16x2048 .f32) (harg5 : arg5.IsWhole) (arg6 : Memref sig .tc .vmem S16x2048 .f32) (harg6 : arg6.IsWhole) (hc0 : ¬cond0_0 i) (hc1 : cond0_1 i)
    (x0 : Vec F S16x3200 .f32) (x1 : Vec F S1x3200 .f32) (x2 : Vec F S1x3200 .i32) (xs0 : Vec F S16x2048 .f32) :
    sout0_C_0 c i arg2 harg2 arg3 harg3 arg4 harg4 arg5 harg5 arg6 harg6 hc0 hc1 x0 x1 x2 xs0 = k0_pay2 i x2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg4.read_unread, harg6.read_unread,
    View.ld_unit_zero (S := S16x3200) hz, View.ld_unit_zero (S := S1x3200) hz, View.ld_unit_zero (S := S16x2048) hz]

/-- and, copied out of the scratch, in the output block. -/
theorem out_last (c : Dev nD) (i : grid0.Coords) (arg2 : Memref sig .tc .vmem S16x3200 .f32) (harg2 : arg2.IsWhole) (arg3 : Memref sig .tc .vmem S1x3200 .f32) (harg3 : arg3.IsWhole) (arg4 : Memref sig .tc .vmem S1x3200 .i32) (harg4 : arg4.IsWhole) (arg5 : Memref sig .tc .vmem S16x2048 .f32) (harg5 : arg5.IsWhole) (arg6 : Memref sig .tc .vmem S16x2048 .f32) (harg6 : arg6.IsWhole) (hc0 : ¬cond0_0 i) (hc1 : cond0_1 i)
    (x0 : Vec F S16x3200 .f32) (x1 : Vec F S1x3200 .f32) (x2 : Vec F S1x3200 .i32) (xs0 : Vec F S16x2048 .f32) :
    out0_C_3 c i arg2 harg2 arg3 harg3 arg4 harg4 arg5 harg5 arg6 harg6 hc0 hc1 x0 x1 x2 xs0 = k0_pay2 i x2 x0 x1 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S16x2048) _ hz]
  simp only [View.readAt_eq_ld, harg2.read_unread, harg3.read_unread, harg4.read_unread, harg6.read_unread,
    View.ld_unit_zero (S := S16x3200) hz, View.ld_unit_zero (S := S1x3200) hz, View.ld_unit_zero (S := S16x2048) hz]

end Cert.KernelIdeal.Pieces

end
-- ==== Proof.LibTransposedRhsDot.lean ====
/-
  A MATRIX PRODUCT WHOSE RIGHT OPERAND IS STORED TRANSPOSED, read at an index over the extended reals.

  The einsum "de,ne->dn" — `L : [M, K]` times `R : [N, K]`, both contracted on their LAST axis, the result `[M, N]` —
  is what a kernel writes when it multiplies by a matrix it holds row-by-row (a one-hot match matrix built node by
  node, a weight kept `[out, in]`). Its dimension numbers are the library's `DotDims.transposedRhs M K N`
  (`<[1], [1], [0], [0], …>`). At the ideal instance a `tpu.matmul` at these dimension numbers into a zero accumulator,
  read at `(r, c)`, is the plain sum over `k` of `L[r, k] · R[c, k]` (`matmul_zero_apply`): the contraction index is one
  coordinate (`ValueIdx.contrEquiv1`), the left operand's index at it is `(r, k)` and the right operand's `(c, k)`
  (`lhsIdx_eq`, `rhsIdx_eq`). A program's own generated record with these six lists is this record (`rfl`: the
  well-formedness field is a proposition).
-/
import Idealize.ShloMosaic.PureOps.Ideal.Laws
import Idealize.ShloMosaic.Lib.ValueIdx

noncomputable section

open scoped BigOperators

namespace Idealize.ShloMosaic.TransposedRhsDot

open Idealize.ShloMosaic Idealize.ShloMosaic.ValueIdx

variable {M K N : Nat}

/-- On the left operand's row axis the index is the result's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- On the right operand's row axis the index is the result's COLUMN. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- On the left operand's last axis the index is the contraction position. -/
theorem lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single (cl := 1) rfl j k

/-- On the right operand's last axis too. -/
theorem rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single (cr := 1) rfl j k

/-- The contraction positions are the numbers below `K`. -/
abbrev contrEquiv : (DotDims.transposedRhs M K N).contr.Idx ≃ Fin K :=
  contrEquiv1 (DotDims.transposedRhs M K N) K rfl rfl

/-- The left operand's index at result `(r, c)` and contraction position `k` is `(r, k)`. -/
theorem lhsIdx_eq (r : Fin M) (c : Fin N) (k : Fin K) :
    (DotDims.transposedRhs M K N).lhsIdx (ix2 r c) ((contrEquiv (M := M) (N := N)).symm k) = ix2 r k := by
  funext a
  refine Fin.ext ?_
  match a with
  | ⟨0, _⟩ => exact lhs_row _ _
  | ⟨1, _⟩ => exact (lhs_col _ _).trans (contrEquiv1_symm_val _ K rfl rfl k)

/-- The right operand's is `(c, k)`. -/
theorem rhsIdx_eq (r : Fin M) (c : Fin N) (k : Fin K) :
    (DotDims.transposedRhs M K N).rhsIdx (ix2 r c) ((contrEquiv (M := M) (N := N)).symm k) = ix2 c k := by
  funext a
  refine Fin.ext ?_
  match a with
  | ⟨0, _⟩ => exact rhs_row _ _
  | ⟨1, _⟩ => exact (rhs_col _ _).trans (contrEquiv1_symm_val _ K rfl rfl k)

/-- THE PRODUCT READ AT `(r, c)`: into a zero accumulator, the sum over `k` of `L[r, k] · R[c, k]`. -/
theorem matmul_zero_apply {φ₁ φ₂ : FTy} (prec : Option ContractPrecision)
    (L : FVec Ideal ⟨2, ![M, K]⟩ φ₁) (R : FVec Ideal ⟨2, ![N, K]⟩ φ₂) (r : Fin M) (c : Fin N) :
    FloatOps.matmul (DotDims.transposedRhs M K N) prec L R (constant ⟨2, ![M, N]⟩ .f32 0x00000000#32) (ix2 r c)
      = ∑ k : Fin K, L (ix2 r k) * R (ix2 c k) := by
  rw [Ideal.matmul_constant_zero_apply, ← Equiv.sum_comp (contrEquiv (M := M) (K := K) (N := N)).symm]
  refine Finset.sum_congr rfl fun k _ => ?_
  rw [lhsIdx_eq, rhsIdx_eq]

end Idealize.ShloMosaic.TransposedRhsDot

end
-- ==== Proof.BlockPayload.lean ====
/-
  ONE GRID POINT'S ARITHMETIC, read at an index over the extended reals.

  At grid point `(i, k)` the kernel body holds a block of 3200 edges — their rows transposed (`x : [16, 3200]`), their
  weights (`w : [1, 3200]`), their receiver words (`r : [1, 3200]`) — and the accumulator `acc : [16, 2048]` of node tile
  `i`. It builds the match matrix `[2048, 3200]` whose entry `(p, e)` is `1` when the word of node `2048 i + p` equals
  `r[0, e]` and `0` when not (a compare, widened and converted; the narrowing to bf16 is the identity here), scales the
  rows (`x[d, e] · w[0, e]`), multiplies the two contracting the EDGE axis of both ("de,ne->dn"), and adds the product
  to the accumulator. So the new accumulator at `(d, p)` is

      acc[d, p] + ∑ₑ x[d, e] · w[0, e] · [word(2048 i + p) = r[0, e]]        (`update_apply`),

  and the very first point of a tile, which stores zeros first, starts that sum from `0` (`zeros_apply`).
-/
import proofs.«427904_j28003186770018_1_alg».proof.Proof.Gen.KernelIdeal.Skeleton
import proofs.«427904_j28003186770018_1_alg».proof.Proof.LibTransposedRhsDot
import Idealize.ShloMosaic.Lib.Pipeline.Value
import Idealize.ShloMosaic.Lib.ValueIdx

noncomputable section

open scoped BigOperators

namespace Cert.KernelIdeal.Payload

open Cert.KernelIdeal Cert.KernelIdeal.Gen Idealize.ShloMosaic Idealize.ShloMosaic.ValueIdx

/-- The body's dimension numbers are those of a product with the right operand stored transposed. -/
theorem dot_eq : dot_S16x3200_S2048x3200_S16x2048_1_1_0_0_n_n = DotDims.transposedRhs 16 3200 2048 := rfl

/-- A word comparison, widened to 32 bits and converted signed, is the number `1` or `0`. -/
theorem onehot_val (x y : BitVec 32) :
    ((((IntOp.cmpi .eq x y).setWidth 32).toInt : ℝ) : EReal) = if x = y then 1 else 0 := by
  have hb : ∀ b : BitVec 1, (b.setWidth 32).toInt = (b.toNat : ℤ) := by decide
  rw [hb]
  by_cases h : x = y
  · rw [if_pos h, show IntOp.cmpi .eq x y = 1#1 from by
      show BitVec.ofBool (x == y) = 1#1
      rw [beq_iff_eq.mpr h]; rfl]
    norm_num
  · rw [if_neg h, show IntOp.cmpi .eq x y = 0#1 from by
      show BitVec.ofBool (x == y) = 0#1
      rw [beq_eq_false_iff_ne.mpr h]; rfl]
    norm_num

/-- The node word of row `p` of tile `a`: `2048 a + p`, computed in 32-bit words. -/
theorem node_word (a p : ℕ) :
    IntOp.addi (Scalar.muli (BitVec.ofNat 32 a) 2048#32) (BitVec.ofNat 32 p) = BitVec.ofNat 32 (a * 2048 + p) := by
  show BitVec.ofNat 32 a * BitVec.ofNat 32 2048 + BitVec.ofNat 32 p = _
  rw [← BitVec.ofNat_mul, ← BitVec.ofNat_add]

/-- The scaled rows at `(d, e)`. -/
theorem scaled_apply (x : Vec Ideal S16x3200 .f32) (w : Vec Ideal S1x3200 .f32) (d : Fin 16) (e : Fin 3200) :
    (truncf .bf16 (mulf (shapeCast S16x3200 x shapeCasts_S16x3200_S16x3200)
        (broadcastTo S16x3200 (shapeCast S1x3200 w shapeCasts_S1x3200_S1x3200) broadcasts_S1x3200_S16x3200))
      bitsLt_bf16_f32 : FVec Ideal S16x3200 .bf16) (ix2 d e) = x (ix2 d e) * w (ix2 0 e) := by
  rw [truncf_apply, mulf_apply, shapeCast_self, shapeCast_self,
    broadcastTo_apply w broadcasts_S1x3200_S16x3200 (ix2 d e) (ix2 0 e) (fun a => by
      match a with
      | ⟨0, _⟩ => rfl
      | ⟨1, _⟩ => rfl)]

/-- The match matrix at `(p, e)`. -/
theorem match_apply (i : grid0.Coords) (r : Vec Ideal S1x3200 .i32) (p : Fin 2048) (e : Fin 3200) :
    (truncf .bf16 (sitofp .f32 (extui 32 (cmpi .eq
        (broadcastTo S2048x3200 (addi (broadcast S2048x1 (Scalar.muli (BitVec.ofNat 32 (i 0).val) 2048#32))
          (iota .tc S2048x1 32 [0] iota_S2048x1_d0_w32)) broadcasts_S2048x1_S2048x3200)
        (broadcastTo S2048x3200 (shapeCast S1x3200 r shapeCasts_S1x3200_S1x3200) broadcasts_S1x3200_S2048x3200))
      natLt_1_32)) bitsLt_bf16_f32 : FVec Ideal S2048x3200 .bf16) (ix2 p e)
      = if BitVec.ofNat 32 ((i 0).val * 2048 + p.val) = r (ix2 0 e) then 1 else 0 := by
  rw [truncf_apply]
  refine (onehot_val _ _).trans ?_
  rw [broadcastTo_apply _ broadcasts_S2048x1_S2048x3200 (ix2 p e) (ix2 p 0) (fun a => by
      match a with
      | ⟨0, _⟩ => rfl
      | ⟨1, _⟩ => rfl),
    broadcastTo_apply _ broadcasts_S1x3200_S2048x3200 (ix2 p e) (ix2 0 e) (fun a => by
      match a with
      | ⟨0, _⟩ => rfl
      | ⟨1, _⟩ => rfl),
    shapeCast_self]
  show (if IntOp.addi (Scalar.muli (BitVec.ofNat 32 (i 0).val) 2048#32)
      (iota .tc S2048x1 32 [0] iota_S2048x1_d0_w32 (ix2 p 0)) = r (ix2 0 e) then (1 : EReal) else 0) = _
  rw [iota_single_apply, node_word]

/-- THE UPDATE at `(d, p)`: the accumulator plus the block's matched, weighted entries. -/
theorem update_apply (i : grid0.Coords) (r : Vec Ideal S1x3200 .i32) (x : Vec Ideal S16x3200 .f32)
    (w : Vec Ideal S1x3200 .f32) (acc : Vec Ideal S16x2048 .f32) (d : Fin 16) (p : Fin 2048) :
    k0_pay2 (F := Ideal) i r x w acc (ix2 d p)
      = acc (ix2 d p) + ∑ e : Fin 3200, x (ix2 d e) * w (ix2 0 e)
          * (if BitVec.ofNat 32 ((i 0).val * 2048 + p.val) = r (ix2 0 e) then 1 else 0) := by
  unfold k0_pay2
  rw [shapeCast_self, addf_apply]
  refine congrArg (acc (ix2 d p) + ·) ?_
  simp only [matmul]
  rw [dot_eq, TransposedRhsDot.matmul_zero_apply]
  refine Finset.sum_congr rfl fun e _ => ?_
  rw [scaled_apply, match_apply]

/-- The zeros the first point of a tile stores. -/
theorem zeros_apply (y : S16x2048.Idx) : k0_pay1 (F := Ideal) y = 0 := by
  unfold k0_pay1
  rw [shapeCast_self]
  show Ideal.ofBits .f32 0x00000000#32 = 0
  exact Ideal.ofBits_zero_f32

end Cert.KernelIdeal.Payload

end
-- ==== Proof.EdgeSums.lean ====
/-
  A SEGMENT SUM, DONE TWO WAYS, over the extended reals.

  There are 1,600,000 edges; edge `e` carries a row `sh[e, ·]` of 16 numbers, a weight `cut[e, 0]` and a receiver
  word `recv[e]`. The SEGMENT SUM of node `n` in column `d` is the sum of `sh[e, d] · cut[e, 0]` over the edges whose
  receiver word, READ SIGNED, is `n` (`nodeSum`): what a scatter-add of the weighted rows into a zero array leaves
  in row `n`.

  The same number is reached without any scatter by comparing words: give edge `e` the factor `1` when the 32-bit word
  of `n` EQUALS `recv[e]` and `0` otherwise (`term`), cut the edges into 500 consecutive blocks of 3200
  (`blockSum`), and add the blocks up one after the other (`partialSum`). For a node number below 2³¹ the word
  comparison and the signed reading agree (`word_eq_iff`), a factor `0` kills its summand and a factor `1` keeps it
  (`x · 0 = 0` and `x · 1 = x` hold for EVERY extended real, so nothing is asked of the inputs), and 500 blocks of
  3200 consecutive edges are all 1,600,000 edges once each (`sum_blocks`): `partialSum_all`.
-/
import Idealize.ShloMosaic.PureOps.Ideal
import Idealize.ShloMosaic.Lib.ValueIdx

noncomputable section

open scoped BigOperators

namespace Cert.EdgeSums

open Idealize.ShloMosaic Idealize.ShloMosaic.ValueIdx

/-- A number below 2³¹, written as a 32-bit word, IS a given word exactly when that word read signed is the number:
    below 2³¹ the signed and the unsigned readings coincide, and a word whose signed reading is non-negative is
    below 2³¹. -/
theorem word_eq_iff (r : BitVec 32) (n : ℕ) (hn : n < 2147483648) : BitVec.ofNat 32 n = r ↔ r.toInt = (n : Int) := by
  constructor
  · rintro rfl
    rw [BitVec.toInt_eq_toNat_cond, BitVec.toNat_ofNat, Nat.mod_eq_of_lt (by omega), if_pos (by omega)]
  · intro h
    apply BitVec.eq_of_toNat_eq
    rw [BitVec.toNat_ofNat, Nat.mod_eq_of_lt (by omega)]
    rw [BitVec.toInt_eq_toNat_cond] at h
    have := r.isLt
    split at h <;> omega

/-- Consecutive blocks of `n` summed one after the other are the sum over all of them. -/
theorem sum_blocks (g : ℕ → EReal) (n : ℕ) :
    ∀ K : ℕ, ∑ k ∈ Finset.range K, ∑ e ∈ Finset.range n, g (k * n + e) = ∑ e ∈ Finset.range (K * n), g e
  | 0 => by rw [Finset.sum_range_zero, Nat.zero_mul, Finset.sum_range_zero]
  | K + 1 => by rw [Finset.sum_range_succ, sum_blocks g n K, Nat.succ_mul, Finset.sum_range_add]

variable (sh : (⟨2, ![1600000, 16]⟩ : Shape).Idx → EReal) (cut : (⟨2, ![1600000, 1]⟩ : Shape).Idx → EReal)
  (recv : (⟨1, ![1600000]⟩ : Shape).Idx → BitVec 32)

/-- Edge `e`'s summand for node `n`, column `d`, by comparing words: its weighted entry times `1` if the word of `n` is
    its receiver word, times `0` if not (and `0` past the last edge, which no sum below reaches). -/
def term (d : Fin 16) (n e : ℕ) : EReal :=
  if h : e < 1600000 then
    sh (ix2 ⟨e, h⟩ d) * cut (ix2 ⟨e, h⟩ 0) * (if BitVec.ofNat 32 n = recv (ix1 ⟨e, h⟩) then 1 else 0)
  else 0

/-- Below the edge count the summand is the product itself. -/
theorem term_of_lt (d : Fin 16) (n e : ℕ) (h : e < 1600000) :
    term sh cut recv d n e
      = sh (ix2 ⟨e, h⟩ d) * cut (ix2 ⟨e, h⟩ 0) * (if BitVec.ofNat 32 n = recv (ix1 ⟨e, h⟩) then 1 else 0) :=
  dif_pos h

/-- Block `k`: the 3200 edges from `3200 k` on. -/
def blockSum (d : Fin 16) (n k : ℕ) : EReal := ∑ e ∈ Finset.range 3200, term sh cut recv d n (k * 3200 + e)

/-- The same block, its edges numbered inside the block. -/
theorem blockSum_eq_fin (d : Fin 16) (n k : ℕ) :
    blockSum sh cut recv d n k = ∑ e : Fin 3200, term sh cut recv d n (k * 3200 + e.val) :=
  (Fin.sum_univ_eq_sum_range (fun e => term sh cut recv d n (k * 3200 + e)) 3200).symm

/-- The first `K` blocks, added up in order. -/
def partialSum (d : Fin 16) (n K : ℕ) : EReal := ∑ k ∈ Finset.range K, blockSum sh cut recv d n k

theorem partialSum_one (d : Fin 16) (n : ℕ) : partialSum sh cut recv d n 1 = blockSum sh cut recv d n 0 :=
  Finset.sum_range_one _

theorem partialSum_succ (d : Fin 16) (n K : ℕ) :
    partialSum sh cut recv d n (K + 1) = partialSum sh cut recv d n K + blockSum sh cut recv d n K :=
  Finset.sum_range_succ _ _

/-- THE SEGMENT SUM of node `n`, column `d`: the weighted entries of the edges whose receiver word read signed is `n`. -/
def nodeSum (d : Fin 16) (n : ℕ) : EReal :=
  ∑ j ∈ Finset.univ.filter (fun j : Fin 1600000 => (recv (ix1 j)).toInt = (n : Int)), sh (ix2 j d) * cut (ix2 j 0)

/-- THE RESULT both programs are compared at: every node's segment sum, times the one scale `inv[0]`. -/
def result (inv : (⟨1, ![1]⟩ : Shape).Idx → EReal) : (⟨2, ![50000, 16]⟩ : Shape).Idx → EReal :=
  fun i => nodeSum sh cut recv (i 1) (i 0).val * inv (ix1 0)

/-- All 500 blocks, added up, are the segment sum — for every node number below 2³¹ and whatever the entries are. -/
theorem partialSum_all (d : Fin 16) (n : ℕ) (hn : n < 2147483648) :
    partialSum sh cut recv d n 500 = nodeSum sh cut recv d n := by
  unfold partialSum blockSum
  rw [sum_blocks (term sh cut recv d n) 3200 500, show 500 * 3200 = 1600000 from rfl,
    ← Fin.sum_univ_eq_sum_range (term sh cut recv d n) 1600000]
  unfold nodeSum
  rw [Finset.sum_filter]
  refine Finset.sum_congr rfl fun j _ => ?_
  unfold term
  rw [dif_pos j.isLt, mul_ite, mul_one, mul_zero]
  exact if_congr (word_eq_iff _ _ hn) rfl rfl

end Cert.EdgeSums

end
-- ==== Proof.RunningSums.lean ====
/-
  THE RUNNING SUMS, grid point by grid point.

  The grid is 25 node tiles by 500 edge blocks, the edge axis innermost: point `t` is tile `t / 500`, edge block
  `t % 500`. The three input windows at point `t` hold edge block `t % 500` — columns `3200 (t % 500) + e` of the
  transposed rows, of the weights laid out as a row, of the receiver words laid out as a row; through the transpose and the two reshapes that @main
  does before the call these are rows `3200 (t % 500) + e` of the argument arrays (`rows_apply`, `weights_apply`,
  `words_apply`). So one update of the accumulator (BlockPayload's `update_apply`) adds, at `(d, p)`, exactly
  `EdgeSums.blockSum` of block `t % 500` for node `2048 (t / 500) + p` (`update_is_block`).

  By induction on the point (the three control cases being "first block of a tile", "middle", "last"), after point `t`
  the scratch holds at `(d, p)` the first `t % 500 + 1` blocks' sum for that node: `scratch_eq`. At the last block of
  a tile the output block holds the same (`out_eq`).
-/
import proofs.«427904_j28003186770018_1_alg».proof.Proof.BodyPieces
import proofs.«427904_j28003186770018_1_alg».proof.Proof.BlockPayload
import proofs.«427904_j28003186770018_1_alg».proof.Proof.EdgeSums
import Idealize.ShloMosaic.Lib.Pipeline.Value
import Idealize.ShloMosaic.Lib.ValueIdx
import Idealize.ShloMosaic.Lib.StableHlo.Run
import Idealize.ShloMosaic.Lib.Tactic

noncomputable section

open scoped BigOperators

namespace Cert.KernelIdeal.Accum

open Cert.KernelIdeal Cert.KernelIdeal.Gen Cert.EdgeSums
open Idealize.ShloMosaic Idealize.ShloMosaic.TcCoe Idealize.SL.Sem Idealize.ShloMosaic.Tactic Idealize.ShloMosaic.ValueIdx

variable (m : (ℓ : Loc nD τ sig) → Buf (Elt Ideal) ℓ)

/-- The four argument arrays on core `c`: rows, weights, receiver words, the scale. -/
abbrev rowsArr (c : Dev nD) : S1600000x16.Idx → EReal := m ((c : Thread nD τ).loc main_arg0)
abbrev weightsArr (c : Dev nD) : S1600000x1.Idx → EReal := m ((c : Thread nD τ).loc main_arg1)
abbrev wordsArr (c : Dev nD) : S1600000.Idx → BitVec 32 := m ((c : Thread nD τ).loc main_arg2)
abbrev scaleArr (c : Dev nD) : S1.Idx → EReal := m ((c : Thread nD τ).loc main_arg3)

/-- The three input blocks at point `t`, at their literal shapes. -/
abbrev rowsBlk (c : Dev nD) (t : Fin cfg0.N) : Vec Ideal S16x3200 .f32 := iblk m c 0 t
abbrev weightsBlk (c : Dev nD) (t : Fin cfg0.N) : Vec Ideal S1x3200 .f32 := iblk m c 1 t
abbrev wordsBlk (c : Dev nD) (t : Fin cfg0.N) : Vec Ideal S1x3200 .i32 := iblk m c 2 t

/-! ## What the call's operands are: @main's three lines before it -/

theorem operand_rows (c : Dev nD) : (V m c main_v0 : S16x1600000.Idx → EReal)
    = transpose S16x1600000 [1, 0] (rowsArr m c) transposes_S1600000x16_S16x1600000_1_0 := by
  show StableHlo.after hostOps0 (fun b => m (c, b)) (Proc.devRef .tc main_v0) = _
  after_results <;> rfl

theorem operand_weights (c : Dev nD) : (V m c main_v1 : S1x1600000.Idx → EReal)
    = shapeCast S1x1600000 (weightsArr m c) shapeCasts_S1600000x1_S1x1600000 := by
  show StableHlo.after hostOps0 (fun b => m (c, b)) (Proc.devRef .tc main_v1) = _
  after_results <;> rfl

theorem operand_words (c : Dev nD) : (V m c main_v2 : S1x1600000.Idx → BitVec 32)
    = shapeCast S1x1600000 (wordsArr m c) shapeCasts_S1600000_S1x1600000 := by
  show StableHlo.after hostOps0 (fun b => m (c, b)) (Proc.devRef .tc main_v2) = _
  after_results <;> rfl

/-! ## The printed index maps and coordinates, decided once over the 12,500 points -/

theorem grid_facts : ∀ t : Fin cfg0.N, win0_0.index t (0 : Fin 2) = 0 ∧ win0_0.index t (1 : Fin 2) = t.val % 500
    ∧ win0_1.index t (0 : Fin 2) = 0 ∧ win0_1.index t (1 : Fin 2) = t.val % 500
    ∧ win0_2.index t (0 : Fin 2) = 0 ∧ win0_2.index t (1 : Fin 2) = t.val % 500
    ∧ win0_3.index t (0 : Fin 2) = 0 ∧ win0_3.index t (1 : Fin 2) = t.val / 500
    ∧ (grid0.coords t 0).val = t.val / 500 :=
  (by decide +kernel : ∀ t : Fin grid0.N, _)

theorem edge_lt (t : Fin cfg0.N) (e : Fin 3200) : t.val % 500 * 3200 + e.val < 1600000 := by
  have := e.isLt
  have : t.val % 500 < 500 := Nat.mod_lt _ (by decide)
  omega

/-! ## The three input blocks at a point, read at an index -/

theorem rows_apply (c : Dev nD) (t : Fin cfg0.N) (d : Fin 16) (e : Fin 3200) :
    rowsBlk m c t (ix2 d e) = rowsArr m c (ix2 ⟨t.val % 500 * 3200 + e.val, edge_lt t e⟩ d) := by
  unfold rowsBlk iblk
  rw [View.read_apply]
  show (V m c main_v0 : S16x1600000.Idx → EReal) (((cfg0.win 0).blk t).view.emb (ix2 d e)) = _
  rw [operand_rows]
  obtain ⟨e0, e1, -⟩ := grid_facts t
  refine transpose_apply [1, 0] _ _ _ (ix2 ⟨_, edge_lt t e⟩ d) (fun b => ?_)
  match b with
  | ⟨0, _⟩ => show d.val = win0_0.index t 0 * 16 + 1 * d.val; rw [e0]; omega
  | ⟨1, _⟩ => show t.val % 500 * 3200 + e.val = win0_0.index t 1 * 3200 + 1 * e.val; rw [e1]; omega

theorem weights_apply (c : Dev nD) (t : Fin cfg0.N) (e : Fin 3200) :
    weightsBlk m c t (ix2 0 e) = weightsArr m c (ix2 ⟨t.val % 500 * 3200 + e.val, edge_lt t e⟩ 0) := by
  unfold weightsBlk iblk
  rw [View.read_apply]
  show (V m c main_v1 : S1x1600000.Idx → EReal) (((cfg0.win 1).blk t).view.emb (ix2 0 e)) = _
  rw [operand_weights]
  obtain ⟨-, -, e2, e3, -⟩ := grid_facts t
  refine shapeCast_apply _ _ _ (ix2 ⟨_, edge_lt t e⟩ 0) ?_
  rw [Shape.rowMajor_val_two, Shape.rowMajor_val_two]
  show (t.val % 500 * 3200 + e.val) * 1 + 0 = (win0_1.index t 0 * 1 + 1 * 0) * 1600000 + (win0_1.index t 1 * 3200 + 1 * e.val)
  rw [e2, e3]; omega

theorem words_apply (c : Dev nD) (t : Fin cfg0.N) (e : Fin 3200) :
    wordsBlk m c t (ix2 0 e) = wordsArr m c (ix1 ⟨t.val % 500 * 3200 + e.val, edge_lt t e⟩) := by
  unfold wordsBlk iblk
  rw [View.read_apply]
  show (V m c main_v2 : S1x1600000.Idx → BitVec 32) (((cfg0.win 2).blk t).view.emb (ix2 0 e)) = _
  rw [operand_words]
  obtain ⟨-, -, -, -, e4, e5, -⟩ := grid_facts t
  refine shapeCast_apply _ _ _ (ix1 ⟨_, edge_lt t e⟩) ?_
  rw [Shape.rowMajor_val_one, Shape.rowMajor_val_two]
  show t.val % 500 * 3200 + e.val = (win0_2.index t 0 * 1 + 1 * 0) * 1600000 + (win0_2.index t 1 * 3200 + 1 * e.val)
  rw [e4, e5]; omega

/-! ## One update is one block of the segment sum -/

theorem update_is_block (c : Dev nD) (t : Fin cfg0.N) (acc : Vec Ideal S16x2048 .f32) (d : Fin 16) (p : Fin 2048) :
    k0_pay2 (F := Ideal) (grid0.coords t) (wordsBlk m c t) (rowsBlk m c t) (weightsBlk m c t) acc (ix2 d p)
      = acc (ix2 d p) + blockSum (rowsArr m c) (weightsArr m c) (wordsArr m c) d (t.val / 500 * 2048 + p.val) (t.val % 500) := by
  refine (Payload.update_apply (grid0.coords t) (wordsBlk m c t) (rowsBlk m c t) (weightsBlk m c t) acc d p).trans ?_
  rw [blockSum_eq_fin]
  refine congrArg (acc (ix2 d p) + ·) (Finset.sum_congr rfl fun e _ => ?_)
  rw [term_of_lt _ _ _ _ _ _ (edge_lt t e), rows_apply m c t d e, weights_apply m c t e, words_apply m c t e,
    (grid_facts t).2.2.2.2.2.2.2.2]

/-! ## The scratch after every point -/

/-- The first `t % 500 + 1` blocks' sums of tile `t / 500`'s nodes. -/
def sumsAfter (c : Dev nD) (n : ℕ) : Vec Ideal S16x2048 .f32 := fun y =>
  partialSum (rowsArr m c) (weightsArr m c) (wordsArr m c) (y 0) (n / 500 * 2048 + (y 1).val) (n % 500 + 1)

theorem scratch_eq (c : Dev nD) : ∀ (n : ℕ) (h : n < cfg0.N), (outsAt0 m c n h).2 = sumsAfter m c n
  | 0, h => by
    rw [outsAt0_A m c ⟨0, h⟩ rfl (by show ¬(0 % 500 = 499); decide)]
    dsimp only
    rw [Pieces.scratch_first]
    funext y
    obtain ⟨d, p, rfl⟩ : ∃ (d : Fin 16) (p : Fin 2048), y = ix2 d p := ⟨y 0, y 1, eq_ix2 y⟩
    refine (update_is_block m c ⟨0, h⟩ _ d p).trans ?_
    rw [Payload.zeros_apply, zero_add]
    exact (partialSum_one _ _ _ _ _).symm
  | n + 1, h => by
    have ih := scratch_eq c n (Nat.lt_of_succ_lt h)
    by_cases h0 : (n + 1) % 500 = 0
    · have h1 : ¬(n + 1) % 500 = 499 := by omega
      rw [outsAt0_A m c ⟨n + 1, h⟩ h0 h1]
      dsimp only
      rw [Pieces.scratch_first]
      funext y
      obtain ⟨d, p, rfl⟩ : ∃ (d : Fin 16) (p : Fin 2048), y = ix2 d p := ⟨y 0, y 1, eq_ix2 y⟩
      refine (update_is_block m c ⟨n + 1, h⟩ _ d p).trans ?_
      rw [Payload.zeros_apply, zero_add]
      show blockSum _ _ _ d ((n + 1) / 500 * 2048 + p.val) ((n + 1) % 500)
        = partialSum _ _ _ d ((n + 1) / 500 * 2048 + p.val) ((n + 1) % 500 + 1)
      rw [h0]
      exact (partialSum_one _ _ _ _ _).symm
    · have e1 : (n + 1) / 500 = n / 500 := by omega
      have e2 : (n + 1) % 500 = n % 500 + 1 := by omega
      have step : ∀ y : S16x2048.Idx,
          k0_pay2 (F := Ideal) (grid0.coords ⟨n + 1, h⟩) (iblk m c 2 ⟨n + 1, h⟩) (iblk m c 0 ⟨n + 1, h⟩) (iblk m c 1 ⟨n + 1, h⟩)
            (outsAt0 m c n (Nat.lt_of_succ_lt h)).2 y = sumsAfter m c (n + 1) y := by
        intro y
        obtain ⟨d, p, rfl⟩ : ∃ (d : Fin 16) (p : Fin 2048), y = ix2 d p := ⟨y 0, y 1, eq_ix2 y⟩
        refine (update_is_block m c ⟨n + 1, h⟩ _ d p).trans ?_
        rw [ih]
        show partialSum _ _ _ d (n / 500 * 2048 + p.val) (n % 500 + 1) + blockSum _ _ _ d ((n + 1) / 500 * 2048 + p.val) ((n + 1) % 500)
          = partialSum _ _ _ d ((n + 1) / 500 * 2048 + p.val) ((n + 1) % 500 + 1)
        rw [e1, e2]
        exact (partialSum_succ _ _ _ _ _ _).symm
      by_cases h1 : (n + 1) % 500 = 499
      · rw [outsAt0_C m c ⟨n + 1, h⟩ h0 h1]
        dsimp only
        rw [Pieces.scratch_last]
        exact funext step
      · rw [outsAt0_B m c ⟨n + 1, h⟩ h0 h1]
        dsimp only
        rw [Pieces.scratch_next]
        exact funext step

/-- At the last edge block of a tile the output block is the finished scratch. -/
theorem out_eq (c : Dev nD) (t : Fin cfg0.N) (h1 : t.val % 500 = 499) :
    (outsAt0 m c t.val t.isLt).1 = sumsAfter m c t.val := by
  have h0 : ¬t.val % 500 = 0 := by omega
  rw [← scratch_eq m c t.val t.isLt, outsAt0_C m c t h0 h1]
  dsimp only
  rw [Pieces.out_last, Pieces.scratch_last]

end Cert.KernelIdeal.Accum

end
-- ==== Proof.KernelValue.lean ====
/-
  THE KERNEL'S RESULT, as one function of the argument arrays.

  Only the last edge block of a tile writes its output block back, and what it writes is the finished scratch: at
  `(d, p)` all 500 blocks' sum for node `2048 i + p`. Block `i` of the `[16, 51200]` output sits at columns
  `2048 i + p`, so the whole array holds, at `(d, n)`, all 500 blocks' sum for node `n` (`outArr`; `flushed_eq`, the
  25 written-back blocks cover the array: `covered`, `final_out`). @main then keeps columns `n < 50000`, transposes, and
  multiplies by the scale: at `(n, d)` the result is that sum times `inv[0]`, and for `n < 50000 < 2³¹` all 500 blocks'
  sum IS node `n`'s segment sum (`EdgeSums.partialSum_all`): the result is `EdgeSums.result` (`tail_eq`, `run`).
-/
import proofs.«427904_j28003186770018_1_alg».proof.Proof.RunningSums

noncomputable section

open scoped BigOperators

namespace Cert.KernelIdeal.KValue

open Cert.KernelIdeal Cert.KernelIdeal.Gen Cert.KernelIdeal.Accum Cert.EdgeSums
open Idealize.ShloMosaic Idealize.ShloMosaic.TcCoe Idealize.SL.Sem Idealize.ShloMosaic.Tactic Idealize.ShloMosaic.ValueIdx
open Idealize.ShloMosaic.Pipeline (Dat)

variable (m : (ℓ : Loc nD τ sig) → Buf (Elt Ideal) ℓ) (ρ : Dev nD → PrngReg)

/-- The call's output array after the run: at `(d, n)`, all 500 blocks' sum for node `n`. -/
abbrev outArr (c : Dev nD) : S16x51200.Idx → EReal := fun y =>
  partialSum (rowsArr m c) (weightsArr m c) (wordsArr m c) (y 0) (y 1).val 500

/-- WHAT A WRITING POINT WRITES BACK is its block of `outArr`. -/
theorem flushed_eq (c : Dev nD) (t : Fin cfg0.N) (hf : (cfg0.win 3).flush t = true) :
    (dats m 0 c).flushed 3 t = ((cfg0.win 3).blk t).view.read (Elt Ideal) (outArr m c) := by
  have h1 : t.val % 500 = 499 := (flush0_3 t).mp hf
  have hN : t.val < 12500 := lt_of_lt_of_eq t.isLt (show cfg0.N = 12500 from N_0)
  show (cfg0.win 3).cut (grid0.coords t) ((dats m 0 c).after 3 t) = _
  rw [after0_3, out_eq m c t h1]
  obtain ⟨-, -, -, -, -, -, e6, e7, -⟩ := grid_facts t
  funext y
  obtain ⟨d, p, rfl⟩ : ∃ (d : Fin 16) (p : Fin 2048), y = ix2 d p := ⟨y 0, y 1, eq_ix2 y⟩
  have he : ((cfg0.win 3).blk t).view.emb (ix2 d p) = (ix2 d ⟨t.val / 500 * 2048 + p.val, by have := p.isLt; omega⟩ : S16x51200.Idx) := by
    funext a; apply Fin.ext
    match a with
    | ⟨0, _⟩ => show win0_3.index t 0 * 16 + 1 * d.val = d.val; rw [e6]; omega
    | ⟨1, _⟩ => show win0_3.index t 1 * 2048 + 1 * p.val = t.val / 500 * 2048 + p.val; rw [e7]; omega
  rw [View.read_apply, he]
  show partialSum _ _ _ d (t.val / 500 * 2048 + p.val) (t.val % 500 + 1) = partialSum _ _ _ d (t.val / 500 * 2048 + p.val) 500
  rw [h1]

/-- An index of the output array is in point `t`'s block iff each coordinate is in the block's range. -/
theorem mem_blk (t : Fin cfg0.N) (i : S16x51200.Idx) :
    i ∈ ((cfg0.win 3).blk t).view.set ↔ ∀ a : Fin 2, win0_3.index t a * S16x2048.size a ≤ (i a).val ∧ (i a).val < win0_3.index t a * S16x2048.size a + S16x2048.size a := by
  show i ∈ ((View.whole main_v3).slice (win0_3.rect t)).set ↔ _
  rw [View.set_slice_whole, Rect.mem_set_unit]
  exact Iff.rfl

/-- Every column lies in the block its tile's last point writes back. -/
theorem covered (i : S16x51200.Idx) : ∃ t : Fin cfg0.N, (cfg0.win 3).flush t = true ∧ i ∈ ((cfg0.win 3).blk t).view.set := by
  have hi0 : (i 0).val < 16 := (i 0).isLt
  have hi1 : (i 1).val < 51200 := (i 1).isLt
  have hN : cfg0.N = 12500 := N_0
  let t : Fin cfg0.N := ⟨(i 1).val / 2048 * 500 + 499, by rw [hN]; omega⟩
  have hv : t.val = (i 1).val / 2048 * 500 + 499 := rfl
  obtain ⟨-, -, -, -, -, -, e6, e7, -⟩ := grid_facts t
  refine ⟨t, (flush0_3 t).mpr (by rw [hv]; omega), ?_⟩
  rw [mem_blk]
  intro a
  match a with
  | ⟨0, _⟩ => show win0_3.index t 0 * 16 ≤ (i 0).val ∧ (i 0).val < win0_3.index t 0 * 16 + 16; rw [e6]; omega
  | ⟨1, _⟩ => show win0_3.index t 1 * 2048 ≤ (i 1).val ∧ (i 1).val < win0_3.index t 1 * 2048 + 2048; rw [e7, hv]; omega

/-- THE OUTPUT ARRAY after the run. -/
theorem final_out (c : Dev nD) : (dats m 0 c).arrAt 3 cfg0.N = outArr m c :=
  (dats m 0 c).arrAt_eq_of_cover 3 (outArr m c) (flushed_eq m c) covered

/-- @MAIN'S RESULT: the slice, the transpose and the scaling of the output array are `EdgeSums.result`. -/
theorem tail_eq (c : Dev nD) :
    Pipeline.afterTail₀ cfgs (dats m) 0 (V0 m) [hostOps1] c main_v8
      = result (rowsArr m c) (weightsArr m c) (wordsArr m c) (scaleArr m c) := by
  unfold Pipeline.afterTail₀
  show StableHlo.after hostOps1 _ (Proc.devRef .tc main_v8) = _
  after_results
  have hout : Pipeline.withArrays (cfgs 0).spec c (V0 m c) (fun w => (dats m 0 c).arrAt w (cfgs 0).N) (Proc.devRef .tc main_v3)
      = outArr m c :=
    (Pipeline.withArrays_arr spec0 launch0.win.arr_inj c _ _ 3).trans (final_out m c)
  have hinv : Pipeline.withArrays (cfgs 0).spec c (V0 m c) (fun w => (dats m 0 c).arrAt w (cfgs 0).N) (Proc.devRef .tc main_arg3)
      = scaleArr m c :=
    (Pipeline.withArrays_of_ne _ c (V0 m c) _ main_arg3 (by exact (by decide : ∀ w, Pipeline.arrRef spec0 w ≠ main_arg3))).trans
      (V_main_arg3 m c)
  rw [hout, hinv]
  funext i
  obtain ⟨n, d, rfl⟩ : ∃ (n : Fin 50000) (d : Fin 16), i = ix2 n d := ⟨i 0, i 1, eq_ix2 i⟩
  have hn : n.val < 50000 := n.isLt
  rw [mulf_apply,
    transpose_apply [1, 0] _ transposes_S16x50000_S50000x16_1_0 (ix2 n d) (ix2 d n) (fun b => by
      match b with
      | ⟨0, _⟩ => rfl
      | ⟨1, _⟩ => rfl),
    extractStridedSlice_apply ![0, 0] _ slices_S16x51200_S16x50000_0_0 (ix2 d n) (ix2 d ⟨n.val, by omega⟩) (fun a => by
      match a with
      | ⟨0, _⟩ => show d.val = 0 + d.val; omega
      | ⟨1, _⟩ => show n.val = 0 + n.val; omega),
    broadcastInDim_apply _ bcast_S1x1_S50000x16_0_1 _ (ix2 n d) (ix2 0 0) (fun a => by
      match a with
      | ⟨0, _⟩ => show 0 = if (1 : Nat) = 1 then 0 else n.val; rw [if_pos rfl]
      | ⟨1, _⟩ => show 0 = if (1 : Nat) = 1 then 0 else d.val; rw [if_pos rfl]),
    broadcastInDim_apply _ bcast_S1_S1x1_1 _ (ix2 0 0) (ix1 0) (fun a => by
      match a with
      | ⟨0, _⟩ => show 0 = if (1 : Nat) = 1 then 0 else 0; rw [if_pos rfl])]
  show partialSum _ _ _ d n.val 500 * scaleArr m c (ix1 0) = nodeSum _ _ _ d n.val * scaleArr m c (ix1 0)
  rw [partialSum_all _ _ _ d n.val (by omega)]

/-- THE RUN, READ: @main's result at `EdgeSums.result` of the arguments, the arguments unchanged. -/
theorem run : θ_run defs (onTc (τ := τ) (main (F := Ideal))) ⟨m, fun _ => 0, ρ⟩ (fun r => ∀ c : Dev nD,
      r.2.mem ((c.tc : Thread nD τ).loc main_v8) = result (rowsArr m c) (weightsArr m c) (wordsArr m c) (scaleArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.LibGatherScatter.lean ====
/-
  STABLEHLO'S GATHER AND SCATTER READ AT AN INDEX, for the dimension numbers that indexing an array by an integer
  array lowers to.

  `x[idx]` of a vector or of a matrix's rows is a `stablehlo.gather` whose start indices are a column `[M, 1]`;
  `x.at[idx].add(v)` of a vector, of a matrix's rows, or of a matrix at index pairs is a `stablehlo.scatter` with an
  `add` body whose scatter indices are a column `[M, 1]` or pairs `[M, 2]`. For each of these five dimension-number
  shapes this file builds the record from the sizes (`vecGatherDims`, `rowGatherDims`, `vecScatterDims`,
  `rowScatterDims`, `pairScatterDims`) and reads the operation at an index:

  * a gather's result element is the operand's at the start index, read SIGNED and CLAMPED into the operand
    (`vecGather_apply`, `rowGather_apply`);
  * a scatter's update lands on an operand element exactly when its index, read SIGNED and NOT clamped, is that
    element's (`vecScatter_resultIdx`, `rowScatter_resultIdx`, `pairScatter_resultIdx`); an update whose index is
    outside the operand lands nowhere;
  * so, over the extended reals, an accumulating scatter's result element is the operand's plus the sum of the updates
    whose index is that element's (`vecScatterAdd_apply`, `rowScatterAdd_apply`, `pairScatterAdd_apply`).
-/
import Idealize.ShloMosaic.PureOps.Ideal
import Idealize.ShloMosaic.Lib.ValueIdx

noncomputable section

open scoped BigOperators

namespace Idealize.ShloMosaic.GatherScatter

open Idealize.ShloMosaic Idealize.ShloMosaic.ValueIdx

/-! ## A scatter's result index, in general -/

section General
variable {s si u : Shape}

/-- An axis among the removed ones is not among the kept ones. -/
theorem not_mem_kept {axes : List (Fin s.rank)} {a : Fin s.rank} (h : a ∈ axes) : a ∉ s.kept axes := by
  intro hk
  have := (List.mem_filter.mp hk).2
  simp only [decide_not, Bool.not_eq_eq_eq_not, Bool.not_true, decide_eq_false_iff_not] at this
  exact this h

/-- An axis not among the removed ones is among the kept ones. -/
theorem mem_kept {axes : List (Fin s.rank)} {a : Fin s.rank} (h : a ∉ axes) : a ∈ s.kept axes :=
  List.mem_filter.mpr ⟨List.mem_finRange a, by simpa using h⟩

/-- An update lands on operand index `i` exactly when, on every operand axis, its start plus its window
    coordinate is `i`'s coordinate: the in-range test of `ScatterDims.resultIdx?` is then `i`'s own range. -/
theorem resultIdx?_eq_some_iff (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have hi := congrFun (Option.some.inj he) a
      have hv := congrArg Fin.val hi
      simp only at hv
      have := (h a).1
      omega
    · intro H
      congr 1
      funext a
      refine Fin.ext ?_
      have := H a
      simp only
      omega
  · rename_i h
    constructor
    · intro he; cases he
    · intro H
      exfalso
      apply h
      intro a
      have := H a
      have := (i a).isLt
      omega

variable {t : Shape}

/-- A gather's operand index on an axis is the clamped start plus the batching coordinate plus the offset
    coordinate. -/
theorem operandIdx_val (d : GatherDims s si t) {w : Nat} (j : t.Idx) (idx : IVec si w) (a : Fin s.rank) :
    (d.operandIdx j idx a).val = d.start j idx a + d.batchCoord j a + d.offCoord j a := rfl

/-- A gather without batching axes has no batching coordinate. -/
theorem batchCoord_of_nil (d : GatherDims s si t) (h : d.operandBatchingDims = []) (j : t.Idx) (a : Fin s.rank) :
    d.batchCoord j a = 0 :=
  d.batchCoord_eq_zero j a (by rw [h]; exact List.not_mem_nil)

/-- On a collapsed axis a gather has no offset coordinate. -/
theorem offCoord_of_collapsed (d : GatherDims s si t) (j : t.Idx) {a : Fin s.rank} (h : a ∈ d.collapsedSliceDims) :
    d.offCoord j a = 0 :=
  d.offCoord_eq_zero j a fun hk => ((d.mem_sKept a).mp hk).1 h

end General

/-! ## Scalars scattered into a vector by a column of indices

What `x.at[idx].add(v)` of a vector `x : [N]` at `idx : [M]` lowers to: scatter indices `[M, 1]`, updates `[M]`,
update_window_dims `[]`, inserted_window_dims `[0]`, scatter_dims_to_operand_dims `[0]`, index_vector_dim 1. -/

section VecScatter

/-- Those dimension numbers for an operand `[N]`, scatter indices `[M, 1]` and updates `[M]`; their conditions
    `wf` are decided on a program's literal shapes. -/
abbrev vecScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- Update `j`'s window starts, on the operand's one axis, at the index `idx[j, 0]` read signed. -/
theorem vecScatter_start (idx : IVec ⟨2, ![M, 1]⟩ w) (j : Fin M) (a : Fin (⟨1, ![N]⟩ : Shape).rank) :
    (vecScatterDims N M wf).start (ix1 j) idx a = (idx (ix2 j 0)).toInt := by
  obtain rfl : a = 0 := Subsingleton.elim _ _
  unfold ScatterDims.start
  rw [dif_pos (show (0 : Fin 1) ∈ (vecScatterDims N M wf).scatterDimsToOperandDims from List.mem_singleton.mpr rfl)]
  have hsi : (vecScatterDims N M wf).siIdx (ix1 j) ⟨List.idxOf (0 : Fin 1) (vecScatterDims N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- The updates are scalars: the window coordinate is `0`. -/
theorem vecScatter_window (j : (⟨1, ![M]⟩ : Shape).Idx) (a : Fin (⟨1, ![N]⟩ : Shape).rank) :
    (vecScatterDims N M wf).window j a = 0 := by
  obtain rfl : a = 0 := Subsingleton.elim _ _
  unfold ScatterDims.window
  rw [dif_neg (not_mem_kept (List.mem_singleton.mpr rfl))]

/-- UPDATE `j` LANDS ON ELEMENT `i` exactly when its index `idx[j, 0]`, read signed, is `i`. -/
theorem vecScatter_resultIdx (idx : IVec ⟨2, ![M, 1]⟩ w) (j : Fin M) (i : Fin N) :
    (vecScatterDims N M wf).resultIdx? (ix1 j) idx = some (ix1 i) ↔ (idx (ix2 j 0)).toInt = (i.val : Int) := by
  rw [resultIdx?_eq_some_iff]
  constructor
  · intro H
    have := H 0
    rw [vecScatter_start, vecScatter_window, Nat.cast_zero, add_zero] at this
    exact this
  · intro H a
    obtain rfl : a = 0 := Subsingleton.elim _ _
    rw [vecScatter_start, vecScatter_window, Nat.cast_zero, add_zero]
    exact H

end VecScatter

/-! ## A vector gathered by a column of indices

What `x[idx]` of a vector `x : [N]` at `idx : [M]` lowers to: start indices `[M, 1]`, result `[M]`, offset_dims
`[]`, collapsed_slice_dims `[0]`, start_index_map `[0]`, index_vector_dim 1, slice_sizes `[1]`. -/

section VecGather
variable {α : Type}

/-- Those dimension numbers for an operand `[N]`, start indices `[M, 1]` and result `[M]`; their conditions `wf`
    are decided on a program's literal shapes. -/
abbrev vecGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

variable {N M w : Nat} (wf : GatherDims.WF ⟨1, ![N]⟩ ⟨2, ![M, 1]⟩ ⟨1, ![M]⟩ [] [0] [] [0] [] 1 ![1])

/-- Result element `j`'s slice starts, on the operand's one axis, at the index `idx[j, 0]` read signed and clamped
    into `[0, N − 1]`. -/
theorem vecGather_start (idx : IVec ⟨2, ![M, 1]⟩ w) (j : Fin M) (a : Fin (⟨1, ![N]⟩ : Shape).rank) :
    (vecGatherDims N M wf).start (ix1 j) idx a = min (idx (ix2 j 0)).toInt.toNat (N - 1) := by
  obtain rfl : a = 0 := Subsingleton.elim _ _
  have hmem : (0 : Fin 1) ∈ (vecGatherDims N M wf).startIndexMap := List.mem_singleton.mpr rfl
  have hsi : (vecGatherDims N M wf).siIdx (ix1 j) ⟨List.idxOf (0 : Fin 1) (vecGatherDims N M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- THE GATHER READ AT `j`: the operand at the start index `idx[j, 0]`, read signed and clamped into
    `[0, N − 1]`. -/
theorem vecGather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (vecGatherDims N M wf) x idx (ix1 j) = x (ix1 ⟨min (idx (ix2 j 0)).toInt.toNat (N - 1), by omega⟩) := by
  unfold Host.gather
  congr 1
  funext a
  refine Fin.ext ?_
  rw [operandIdx_val, vecGather_start, batchCoord_of_nil _ rfl,
    offCoord_of_collapsed _ _ (by obtain rfl : a = 0 := Subsingleton.elim _ _; exact List.mem_singleton.mpr rfl)]
  obtain rfl : a = 0 := Subsingleton.elim _ _
  rfl

end VecGather

/-! ## Scalars scattered into a matrix by index pairs

What `x.at[r, c].add(v)` of a matrix `x : [N, N']` at `r, c : [M]` lowers to: scatter indices `[M, 2]` (the pairs
`(r[j], c[j])`), updates `[M]`, update_window_dims `[]`, inserted_window_dims `[0, 1]`,
scatter_dims_to_operand_dims `[0, 1]`, index_vector_dim 1. -/

section PairScatter

/-- Those dimension numbers for an operand `[N, N']`, scatter indices `[M, 2]` and updates `[M]`; their conditions
    `wf` are decided on a program's literal shapes. -/
abbrev pairScatterDims (N N' M : Nat) (wf : ScatterDims.WF ⟨2, ![N, N']⟩ ⟨2, ![M, 2]⟩ ⟨1, ![M]⟩ [] [0, 1] [0, 1] 1) :
    ScatterDims ⟨2, ![N, N']⟩ ⟨2, ![M, 2]⟩ ⟨1, ![M]⟩ where
  updateWindowDims := []
  insertedWindowDims := [0, 1]
  scatterDimsToOperandDims := [0, 1]
  indexVectorDim := 1
  wf := wf

variable {N N' M w : Nat} (wf : ScatterDims.WF ⟨2, ![N, N']⟩ ⟨2, ![M, 2]⟩ ⟨1, ![M]⟩ [] [0, 1] [0, 1] 1)

/-- Update `j`'s window starts, on the operand's row axis, at the index `idx[j, 0]` read signed. -/
theorem pairScatter_start0 (idx : IVec ⟨2, ![M, 2]⟩ w) (j : Fin M) :
    (pairScatterDims N N' M wf).start (ix1 j) idx 0 = (idx (ix2 j 0)).toInt := by
  have hmem : (0 : Fin 2) ∈ (pairScatterDims N N' M wf).scatterDimsToOperandDims :=
    (by decide : (0 : Fin 2) ∈ ([0, 1] : List (Fin 2)))
  have hsi : (pairScatterDims N N' M wf).siIdx (ix1 j) ⟨List.idxOf (0 : Fin 2) (pairScatterDims N N' M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- Update `j`'s window starts, on the operand's column axis, at the index `idx[j, 1]` read signed. -/
theorem pairScatter_start1 (idx : IVec ⟨2, ![M, 2]⟩ w) (j : Fin M) :
    (pairScatterDims N N' M wf).start (ix1 j) idx 1 = (idx (ix2 j 1)).toInt := by
  have hmem : (1 : Fin 2) ∈ (pairScatterDims N N' M wf).scatterDimsToOperandDims :=
    (by decide : (1 : Fin 2) ∈ ([0, 1] : List (Fin 2)))
  have hsi : (pairScatterDims N N' M wf).siIdx (ix1 j) ⟨List.idxOf (1 : Fin 2) (pairScatterDims N N' M wf).scatterDimsToOperandDims,
      List.idxOf_lt_length_iff.2 hmem⟩ = ix2 j 1 := by
    funext b; refine Fin.ext ?_
    match b with
    | ⟨0, _⟩ => rfl
    | ⟨1, _⟩ => rfl
  unfold ScatterDims.start
  rw [dif_pos hmem, hsi]

/-- The updates are scalars: the window coordinate is `0` on both axes. -/
theorem pairScatter_window (j : (⟨1, ![M]⟩ : Shape).Idx) (a : Fin (⟨2, ![N, N']⟩ : Shape).rank) :
    (pairScatterDims N N' M wf).window j a = 0 := by
  unfold ScatterDims.window
  rw [dif_neg (not_mem_kept (by
    match a with
    | ⟨0, _⟩ => exact (by decide : (0 : Fin 2) ∈ ([0, 1] : List (Fin 2)))
    | ⟨1, _⟩ => exact (by decide : (1 : Fin 2) ∈ ([0, 1] : List (Fin 2)))))]

/-- UPDATE `j` LANDS ON ELEMENT `(i, i')` exactly when its index pair `(idx[j, 0], idx[j, 1])`, read signed, is
    `(i, i')`. -/
theorem pairScatter_resultIdx (idx : IVec ⟨2, ![M, 2]⟩ w) (j : Fin M) (i : Fin N) (i' : Fin N') :
    (pairScatterDims N N' M wf).resultIdx? (ix1 j) idx = some (ix2 i i') ↔
      ((idx (ix2 j 0)).toInt = (i.val : Int) ∧ (idx (ix2 j 1)).toInt = (i'.val : Int)) := by
  rw [resultIdx?_eq_some_iff]
  constructor
  · intro H
    have h0 := H 0
    have h1 := H 1
    rw [pairScatter_start0, pairScatter_window, Nat.cast_zero, add_zero] at h0
    rw [pairScatter_start1, pairScatter_window, Nat.cast_zero, add_zero] at h1
    exact ⟨h0, h1⟩
  · intro H a
    match a with
    | ⟨0, _⟩ =>
      show (pairScatterDims N N' M wf).start (ix1 j) idx 0 + ((pairScatterDims N N' M wf).window (ix1 j) 0 : Int) = _
      rw [pairScatter_start0, pairScatter_window, Nat.cast_zero, add_zero]
      exact H.1
    | ⟨1, _⟩ =>
      show (pairScatterDims N N' M wf).start (ix1 j) idx 1 + ((pairScatterDims N N' M wf).window (ix1 j) 1 : Int) = _
      rw [pairScatter_start1, pairScatter_window, Nat.cast_zero, add_zero]
      exact H.2

end PairScatter

/-! ## Rows scattered into a matrix by a column of indices

What `x.at[idx].add(v)` of a matrix `x : [N, C]` at `idx : [M]` with `v : [M, C]` lowers to: scatter indices
`[M, 1]`, updates `[M, C]`, update_window_dims `[1]`, inserted_window_dims `[0]`, scatter_dims_to_operand_dims
`[0]`, index_vector_dim 1. -/

section RowScatter

/-- Those dimension numbers for an operand `[N, C]`, scatter indices `[M, 1]` and updates `[M, C]`; their
    conditions `wf` are decided on a program's literal shapes. -/
abbrev rowScatterDims (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N C M w : Nat} (wf : ScatterDims.WF ⟨2, ![N, C]⟩ ⟨2, ![M, 1]⟩ ⟨2, ![M, C]⟩ [1] [0] [0] 1)

/-- Update `(j, f)`'s window starts, on the operand's row axis, at the index `idx[j, 0]` read signed. -/
theorem rowScatter_start0 (idx : IVec ⟨2, ![M, 1]⟩ w) (j : Fin M) (f : Fin C) :
    (rowScatterDims N C M wf).start (ix2 j f) idx 0 = (idx (ix2 j 0)).toInt := by
  have hmem : (0 : Fin 2) ∈ (rowScatterDims N C M wf).scatterDimsToOperandDims := List.mem_singleton.mpr rfl
  have hsi : (rowScatterDims N C M wf).siIdx (ix2 j f) ⟨List.idxOf (0 : Fin 2) (rowScatterDims N C M wf).scatterDimsToOperandDims,
      List.idxOf_lt_length_iff.2 hmem⟩ = ix2 j 0 := by
    funext b; refine Fin.ext ?_
    match b with
    | ⟨0, _⟩ => rfl
    | ⟨1, _⟩ => rfl
  unfold ScatterDims.start
  rw [dif_pos hmem, hsi]

/-- The scatter indices name no column: on the operand's column axis the window starts at `0`. -/
theorem rowScatter_start1 (idx : IVec ⟨2, ![M, 1]⟩ w) (j : (⟨2, ![M, C]⟩ : Shape).Idx) :
    (rowScatterDims N C M wf).start j idx 1 = 0 := by
  unfold ScatterDims.start
  rw [dif_neg (by decide : (1 : Fin 2) ∉ ([0] : List (Fin 2)))]

/-- The row axis is inserted: the window coordinate on it is `0`. -/
theorem rowScatter_window0 (j : (⟨2, ![M, C]⟩ : Shape).Idx) : (rowScatterDims N C M wf).window j 0 = 0 := by
  unfold ScatterDims.window
  rw [dif_neg (not_mem_kept (List.mem_singleton.mpr rfl))]

/-- The window coordinate on the operand's column axis is the update's column. -/
theorem rowScatter_window1 (j : Fin M) (f : Fin C) : (rowScatterDims N C M wf).window (ix2 j f) 1 = f.val := by
  unfold ScatterDims.window
  rw [dif_pos (mem_kept (by decide : (1 : Fin 2) ∉ ([0] : List (Fin 2))))]
  rfl

/-- UPDATE `(j, f)` LANDS ON ELEMENT `(i, g)` exactly when its row's index `idx[j, 0]`, read signed, is `i` and its
    column `f` is `g`. -/
theorem rowScatter_resultIdx (idx : IVec ⟨2, ![M, 1]⟩ w) (j : Fin M) (f : Fin C) (i : Fin N) (g : Fin C) :
    (rowScatterDims N C M wf).resultIdx? (ix2 j f) idx = some (ix2 i g) ↔
      ((idx (ix2 j 0)).toInt = (i.val : Int) ∧ f = g) := by
  rw [resultIdx?_eq_some_iff]
  constructor
  · intro H
    have h0 := H 0
    have h1 := H 1
    rw [rowScatter_start0, rowScatter_window0, Nat.cast_zero, add_zero] at h0
    rw [rowScatter_start1, rowScatter_window1, zero_add] at h1
    exact ⟨h0, Fin.ext (Int.ofNat_inj.mp h1)⟩
  · intro H a
    match a with
    | ⟨0, _⟩ =>
      show (rowScatterDims N C M wf).start (ix2 j f) idx 0 + ((rowScatterDims N C M wf).window (ix2 j f) 0 : Int) = _
      rw [rowScatter_start0, rowScatter_window0, Nat.cast_zero, add_zero]
      exact H.1
    | ⟨1, _⟩ =>
      show (rowScatterDims N C M wf).start (ix2 j f) idx 1 + ((rowScatterDims N C M wf).window (ix2 j f) 1 : Int) = _
      rw [rowScatter_start1, rowScatter_window1, zero_add, H.2]

end RowScatter

/-! ## Rows of a matrix gathered by a column of indices

What `x[idx]` of a matrix `x : [N, C]` at `idx : [M]` lowers to: start indices `[M, 1]`, result `[M, C]`,
offset_dims `[1]`, collapsed_slice_dims `[0]`, start_index_map `[0]`, index_vector_dim 1, slice_sizes `[1, C]`. -/

section RowGather
variable {α : Type}

/-- Those dimension numbers for an operand `[N, C]`, start indices `[M, 1]` and result `[M, C]`; their conditions
    `wf` are decided on a program's literal shapes. -/
abbrev rowGatherDims (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

variable {N C M w : Nat} (wf : GatherDims.WF ⟨2, ![N, C]⟩ ⟨2, ![M, 1]⟩ ⟨2, ![M, C]⟩ [1] [0] [] [0] [] 1 ![1, C])

/-- Result element `(j, f)`'s slice starts, on the operand's row axis, at the index `idx[j, 0]` read signed and
    clamped into `[0, N − 1]`. -/
theorem rowGather_start0 (idx : IVec ⟨2, ![M, 1]⟩ w) (j : Fin M) (f : Fin C) :
    (rowGatherDims N C M wf).start (ix2 j f) idx 0 = min (idx (ix2 j 0)).toInt.toNat (N - 1) := by
  have hmem : (0 : Fin 2) ∈ (rowGatherDims N C M wf).startIndexMap := List.mem_singleton.mpr rfl
  have hsi : (rowGatherDims N C M wf).siIdx (ix2 j f) ⟨List.idxOf (0 : Fin 2) (rowGatherDims N C M wf).startIndexMap,
      List.idxOf_lt_length_iff.2 hmem⟩ = ix2 j 0 := by
    funext b; refine Fin.ext ?_
    match b with
    | ⟨0, _⟩ => rfl
    | ⟨1, _⟩ => rfl
  unfold GatherDims.start
  rw [dif_pos hmem, hsi]
  rfl

/-- The start indices name no column: on the operand's column axis the slice starts at `0`. -/
theorem rowGather_start1 (idx : IVec ⟨2, ![M, 1]⟩ w) (j : (⟨2, ![M, C]⟩ : Shape).Idx) :
    (rowGatherDims N C M wf).start j idx 1 = 0 := by
  unfold GatherDims.start
  rw [dif_neg (by decide : (1 : Fin 2) ∉ ([0] : List (Fin 2)))]

/-- The offset coordinate on the operand's column axis is the result's column. -/
theorem rowGather_offCoord1 (j : Fin M) (f : Fin C) : (rowGatherDims N C M wf).offCoord (ix2 j f) 1 = f.val := by
  unfold GatherDims.offCoord
  rw [dif_pos (mem_kept (by decide : (1 : Fin 2) ∉ ([0] ++ [] : List (Fin 2))))]
  rfl

/-- THE GATHER READ AT `(j, f)`: column `f` of the operand's row at the start index `idx[j, 0]`, read signed and
    clamped into `[0, N − 1]`. -/
theorem rowGather_apply (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M)
    (f : Fin C) :
    Host.gather (rowGatherDims N C M wf) x idx (ix2 j f)
      = x (ix2 ⟨min (idx (ix2 j 0)).toInt.toNat (N - 1), by omega⟩ f) := by
  unfold Host.gather
  congr 1
  funext a
  refine Fin.ext ?_
  rw [operandIdx_val, batchCoord_of_nil _ rfl, Nat.add_zero]
  match a with
  | ⟨0, _⟩ =>
    show (rowGatherDims N C M wf).start (ix2 j f) idx 0 + (rowGatherDims N C M wf).offCoord (ix2 j f) 0 = _
    rw [rowGather_start0, offCoord_of_collapsed _ _ (List.mem_singleton.mpr rfl)]
    rfl
  | ⟨1, _⟩ =>
    show (rowGatherDims N C M wf).start (ix2 j f) idx 1 + (rowGatherDims N C M wf).offCoord (ix2 j f) 1 = _
    rw [rowGather_start1, rowGather_offCoord1, Nat.zero_add]

end RowGather

/-! ## The accumulating scatters over the extended reals

At the ideal instance an accumulating scatter (`Host.scatterAdd`) is each operand element plus the sum of the updates
that land on it; by the landing conditions above, the sum over the updates whose index is that element's. -/

section Sums

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

variable {φ : FTy}

/-- SCALARS ACCUMULATED INTO A VECTOR, read at `i`: the operand's element plus the sum of the updates whose index
    `idx[j, 0]`, read signed, is `i`. -/
theorem vecScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Host.scatterAdd (F := Ideal) (φ := φ) (vecScatterDims N M wf) x idx upd (ix1 i)
      = x (ix1 i) + ∑ j ∈ Finset.univ.filter (fun j : Fin M => (idx (ix2 j 0)).toInt = (i.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (vecScatter_resultIdx wf idx j i) rfl rfl

/-- SCALARS ACCUMULATED INTO A MATRIX BY INDEX PAIRS, read at `(i, i')`: the operand's element plus the sum of the
    updates whose index pair `(idx[j, 0], idx[j, 1])`, read signed, is `(i, i')`. -/
theorem pairScatterAdd_apply {N N' M w : Nat}
    (wf : ScatterDims.WF ⟨2, ![N, N']⟩ ⟨2, ![M, 2]⟩ ⟨1, ![M]⟩ [] [0, 1] [0, 1] 1)
    (x : (⟨2, ![N, N']⟩ : Shape).Idx → EReal) (idx : IVec ⟨2, ![M, 2]⟩ w) (upd : (⟨1, ![M]⟩ : Shape).Idx → EReal)
    (i : Fin N) (i' : Fin N') :
    Host.scatterAdd (F := Ideal) (φ := φ) (pairScatterDims N N' M wf) x idx upd (ix2 i i')
      = x (ix2 i i') + ∑ j ∈ Finset.univ.filter (fun j : Fin M =>
          (idx (ix2 j 0)).toInt = (i.val : Int) ∧ (idx (ix2 j 1)).toInt = (i'.val : Int)), upd (ix1 j) := by
  simp only [Host.scatterAdd, Ideal.hostScatterAdd_def, Ideal.hostScatterAdd]
  congr 1
  rw [Finset.sum_filter, Finset.sum_filter, sum_idx1]
  refine Finset.sum_congr rfl fun j _ => ?_
  exact if_congr (pairScatter_resultIdx wf idx j i i') rfl rfl

/-- ROWS ACCUMULATED INTO A MATRIX, read at `(i, g)`: the operand's element plus the sum of column `g` of the
    update rows whose index `idx[j, 0]`, read signed, is `i`. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (i : Fin N) (g : Fin C) :
    Host.scatterAdd (F := Ideal) (φ := φ) (rowScatterDims N C M wf) x idx upd (ix2 i g)
      = x (ix2 i g) + ∑ j ∈ Finset.univ.filter (fun j : Fin M => (idx (ix2 j 0)).toInt = (i.val : Int)), upd (ix2 j g) := by
  simp only [Host.scatterAdd, Ideal.hostScatterAdd_def, Ideal.hostScatterAdd]
  congr 1
  rw [Finset.sum_filter, Finset.sum_filter, sum_idx2]
  refine Finset.sum_congr rfl fun j _ => ?_
  rw [Finset.sum_congr rfl fun f _ => if_congr (rowScatter_resultIdx wf idx j f i g) rfl rfl]
  by_cases h : (idx (ix2 j 0)).toInt = (i.val : Int)
  · simp only [h, true_and, if_true]
    rw [Finset.sum_ite_eq']
    simp only [Finset.mem_univ, if_true]
  · simp only [h, false_and, if_false, Finset.sum_const_zero]

end Sums

end Idealize.ShloMosaic.GatherScatter

end
-- ==== Proof.RefValue.lean ====
/-
  WHAT THE REFERENCE COMPUTES, index by index over the extended reals.

  The reference scales every edge's row by the edge's weight (`sh[e, d] · cut[e, 0]`), scatter-adds the scaled rows
  into a zero array of 50,000 node rows at the edges' receiver indices, and multiplies by the one scale `inv[0]`. A
  scatter-add of rows at a column of indices, read at `(n, d)`, is the operand there plus the sum of column `d` of the
  update rows whose index word READ SIGNED is `n` — an index outside `[0, 50000)` lands nowhere. The operand is zero,
  so row `n` holds the segment sum of node `n` (`EdgeSums.nodeSum`), and the whole result is `EdgeSums.result`.
-/
import proofs.«427904_j28003186770018_1_alg».proof.Defs
import proofs.«427904_j28003186770018_1_alg».proof.Proof.Gen.ReferenceIdeal.Run
import proofs.«427904_j28003186770018_1_alg».proof.Proof.Gen.ReferenceIdeal.Read
import proofs.«427904_j28003186770018_1_alg».proof.Proof.LibGatherScatter
import proofs.«427904_j28003186770018_1_alg».proof.Proof.EdgeSums
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx Idealize.ShloMosaic.GatherScatter

/-- The reference's scatter has the dimension numbers of rows scattered at a column of indices. -/
theorem scatter_eq : scatter_S50000x16_S1600000x1_S1600000x16_1_0_0_1
    = rowScatterDims 50000 16 1600000 Facts₀.scatter_S50000x16_S1600000x1_S1600000x16_1_0_0_1_wf := rfl

/-- THE REFERENCE'S RESULT is every node's segment sum times the scale. -/
theorem ref_eq (x0 : S1600000x16.Idx → EReal) (x1 : S1600000x1.Idx → EReal) (x2 : S1600000.Idx → BitVec 32)
    (x3 : S1.Idx → EReal) :
    val_main_v7 (F := Ideal) x0 x1 x2 x3 = Cert.EdgeSums.result x0 x1 x2 x3 := by
  funext i
  obtain ⟨n, d, rfl⟩ : ∃ (n : Fin 50000) (d : Fin 16), i = ix2 n d := ⟨i 0, i 1, eq_ix2 i⟩
  -- the receiver column, the scaled rows and the zero operand, each at an index
  have h3 : ∀ j : Fin 1600000, val_main_v3 (F := Ideal) x2 (ix2 j 0) = x2 (ix1 j) := fun j =>
    (val_main_v3_apply x2 _).trans (congrArg x2 (funext fun a => match a with | ⟨0, _⟩ => rfl))
  have h1 : ∀ j : Fin 1600000, val_main_v1 (F := Ideal) x0 x1 (ix2 j d) = x0 (ix2 j d) * x1 (ix2 j 0) := fun j => by
    rw [val_main_v1_apply, val_main_v0_apply]
    show x0 (ix2 j d) * x1 _ = _
    exact congrArg (x0 (ix2 j d) * x1 ·) (funext fun a => match a with | ⟨0, _⟩ => rfl | ⟨1, _⟩ => rfl)
  have h2 : val_main_v2 (F := Ideal) (ix2 n d) = 0 := by
    rw [val_main_v2_apply, val_main_cst_apply]
    exact Ideal.ofBits_zero_f32
  have h6 : val_main_v6 (F := Ideal) x3 (ix2 n d) = x3 (ix1 0) := by
    rw [val_main_v6_apply, val_main_v5_apply]
    exact congrArg x3 (funext fun a => match a with | ⟨0, _⟩ => rfl)
  rw [val_main_v7_apply, h6]
  unfold val_main_v4
  rw [scatter_eq, rowScatterAdd_apply, h2, zero_add]
  simp only [h3, h1]
  rfl

end Cert.ReferenceIdeal.RefValue

end
-- ==== Proof.lean ====
/-
  THE CERTIFICATE of a segment sum computed without a scatter.

  The kernel sums, for each of 50,000 nodes, the weighted rows `sh[e, ·] · cut[e, 0]` of the edges `e` (of 1,600,000)
  whose receiver is that node, and scales by `inv[0]`. It has no scatter: for a tile of 2048 nodes and a block of 3200
  edges it builds the 0/1 match matrix "node word = receiver word" and multiplies the block's scaled rows by it, adding
  the product into an accumulator over the 500 edge blocks; 25 tiles pad the node axis to 51,200, and the last 1,200
  columns are dropped. The reference is `segment_sum`: a scatter-add of the scaled rows into a zero array.

  Over the extended reals both are, at `(n, d)`, the sum of `sh[e, d] · cut[e, 0]` over the edges whose receiver word
  READ SIGNED is `n`, times `inv[0]` (`EdgeSums.result`):
    * the reference, because a scatter-add lands an update exactly on the row its index read signed names, and
      nowhere when that is outside `[0, 50000)` (RefValue.lean);
    * the kernel, because a matched factor `1` keeps a summand and an unmatched `0` kills it (`x · 1 = x`, `x · 0 = 0`
      for every extended real), the word of a node number below 2³¹ equals a word exactly when that word read signed
      is the number, 500 consecutive blocks of 3200 edges are all the edges once, and a receiver in the padding
      `[50000, 51200)` only ever reaches a dropped column (EdgeSums.lean, RunningSums.lean, KernelValue.lean).
  No law used needs a finite entry, so the precondition is never opened. The three frames are the generated ones (the
  reference's: its generated run with the result dropped); the idealization rewrote nothing.
-/
import proofs.«427904_j28003186770018_1_alg».proof.Defs
import proofs.«427904_j28003186770018_1_alg».proof.Proof.Gen.Kernel
import proofs.«427904_j28003186770018_1_alg».proof.Proof.Gen.Kernel.Skeleton
import proofs.«427904_j28003186770018_1_alg».proof.Proof.Gen.Kernel.Launch
import proofs.«427904_j28003186770018_1_alg».proof.Proof.Gen.Kernel.Points
import proofs.«427904_j28003186770018_1_alg».proof.Proof.Gen.Kernel.Frame
import proofs.«427904_j28003186770018_1_alg».proof.Proof.Gen.KernelIdeal
import proofs.«427904_j28003186770018_1_alg».proof.Proof.Gen.KernelIdeal.Skeleton
import proofs.«427904_j28003186770018_1_alg».proof.Proof.Gen.KernelIdeal.Launch
import proofs.«427904_j28003186770018_1_alg».proof.Proof.Gen.KernelIdeal.Points
import proofs.«427904_j28003186770018_1_alg».proof.Proof.Gen.KernelIdeal.Frame
import proofs.«427904_j28003186770018_1_alg».proof.Proof.Gen.ReferenceIdeal
import proofs.«427904_j28003186770018_1_alg».proof.Proof.Gen.Pre_finite_inputs
import proofs.«427904_j28003186770018_1_alg».proof.Proof.KernelValue
import proofs.«427904_j28003186770018_1_alg».proof.Proof.RefValue
import Idealize.ShloMosaic.Adequacy
import Idealize.ShloMosaic.Init

noncomputable section

namespace Cert.Proof

open Idealize.ShloMosaic Idealize.ShloMosaic.TcCoe Idealize.SL.Sem

/-- The reference runs and keeps its arguments: its generated run, the result forgotten. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs, from memories agreeing on the arguments, end at `EdgeSums.result` of the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.EdgeSums.result (Cert.KernelIdeal.Accum.rowsArr m c) (Cert.KernelIdeal.Accum.weightsArr m c)
      (Cert.KernelIdeal.Accum.wordsArr m c) (Cert.KernelIdeal.Accum.scaleArr m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, (hagree c).1, (hagree c).2.1, (hagree c).2.2.1, (hagree c).2.2.2]
  exact Cert.ReferenceIdeal.RefValue.ref_eq _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
